-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S100x512x512 : Shape := ⟨3, ![100, 512, 512]⟩
abbrev S100x512 : Shape := ⟨2, ![100, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S100x512x512 : S_.BroadcastsInDim S100x512x512 (![] : Fin 0 → Fin S100x512x512.rank)
  reducesTo_S100x512x512_S_d0_1_2 : S100x512x512.ReducesTo [0, 1, 2] S_
  bcast_S_S100x512 : S_.BroadcastsInDim S100x512 (![] : Fin 0 → Fin S100x512.rank)
  reducesTo_S100x512_S_d0_1 : S100x512.ReducesTo [0, 1] S_

variable [Facts]

def fn {F : FTy → Type} [FloatOps F] (main_arg0 : FVec F S4096x512 .f32) (main_arg1 : FVec F S100x512x512 .f32) (main_arg2 : FVec F S100x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S100x512x512 .f32 := Host.absf main_arg1
  let main_cst_0 : FVec F S_ .f32 := constant S_ .f32 0x7F800000#32
  let main_v5 : FVec F S100x512x512 .f32 := broadcastInDim S100x512x512 ![] bcast_S_S100x512x512 main_cst_0
  let main_v6 : IVec S100x512x512 1 := cmpf .olt main_v4 main_v5
  let main_c_1 : IVec S_ 1 := constantI S_ 1 1#1
  let main_v7 : IVec S_ 1 := (fun x v => Host.reduce IntOp.andi x v reducesTo_S100x512x512_S_d0_1_2 h_S_) main_v6 main_c_1
  let main_v8 : IVec S_ 1 := andi main_v3 main_v7
  let main_v9 : FVec F S100x512 .f32 := Host.absf main_arg2
  let main_cst_2 : FVec F S_ .f32 := constant S_ .f32 0x7F800000#32
  let main_v10 : FVec F S100x512 .f32 := broadcastInDim S100x512 ![] bcast_S_S100x512 main_cst_2
  let main_v11 : IVec S100x512 1 := cmpf .olt main_v9 main_v10
  let main_c_3 : IVec S_ 1 := constantI S_ 1 1#1
  let main_v12 : IVec S_ 1 := (fun x v => Host.reduce IntOp.andi x v reducesTo_S100x512_S_d0_1 h_S_) main_v11 main_c_3
  let main_v13 : IVec S_ 1 := andi main_v8 main_v12
  main_v13
-- ==== Kernel.lean ====
abbrev S4096x512 : Shape := ⟨2, ![4096, 512]⟩
abbrev S100x512x512 : Shape := ⟨3, ![100, 512, 512]⟩
abbrev S100x512 : Shape := ⟨2, ![100, 512]⟩
abbrev S_ : Shape := ⟨0, ![]⟩
abbrev S104x512x512 : Shape := ⟨3, ![104, 512, 512]⟩
abbrev S104x512 : Shape := ⟨2, ![104, 512]⟩
abbrev S104x4096 : Shape := ⟨2, ![104, 4096]⟩
abbrev S512x512 : Shape := ⟨2, ![512, 512]⟩
abbrev S8x512x512 : Shape := ⟨3, ![8, 512, 512]⟩
abbrev S8x512 : Shape := ⟨2, ![8, 512]⟩
abbrev S1x512x512 : Shape := ⟨3, ![1, 512, 512]⟩
abbrev S1x512 : Shape := ⟨2, ![1, 512]⟩
abbrev S512 : Shape := ⟨1, ![512]⟩
abbrev S100x4096 : Shape := ⟨2, ![100, 4096]⟩
abbrev S4096x100 : Shape := ⟨2, ![4096, 100]⟩

abbrev nBuf : Space → Nat
  | .hbm => 12
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S100x512x512, .f32⟩
  | .hbm, ⟨2, _⟩ => ⟨S100x512, .f32⟩
  | .hbm, ⟨3, _⟩ => ⟨S_, .i32⟩
  | .hbm, ⟨4, _⟩ => ⟨S_, .f32⟩
  | .hbm, ⟨5, _⟩ => ⟨S104x512x512, .f32⟩
  | .hbm, ⟨6, _⟩ => ⟨S_, .i32⟩
  | .hbm, ⟨7, _⟩ => ⟨S_, .f32⟩
  | .hbm, ⟨8, _⟩ => ⟨S104x512, .f32⟩
  | .hbm, ⟨9, _⟩ => ⟨S104x4096, .f32⟩
  | .hbm, ⟨10, _⟩ => ⟨S100x4096, .f32⟩
  | .hbm, ⟨11, _⟩ => ⟨S4096x100, .f32⟩
  | .local _ .vmem, ⟨0, _⟩ => ⟨S512x512, .f32⟩
  | .local _ .vmem, ⟨1, _⟩ => ⟨S512x512, .f32⟩
  | .local _ .vmem, ⟨2, _⟩ => ⟨S8x512x512, .f32⟩
  | .local _ .vmem, ⟨3, _⟩ => ⟨S8x512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S100x512x512_S104x512x512_040_000_000 : S100x512x512.Pads (![0, 0, 0] : Fin 3 → Nat) ![4, 0, 0] ![0, 0, 0] S104x512x512
  h_S_ : 0 < S_.numel
  pads_S100x512_S104x512_040_000 : S100x512.Pads (![0, 0] : Fin 2 → Nat) ![4, 0] ![0, 0] S104x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  reduces_S512x512_S512 : S512x512.Reduces [1] S512
  inb_S8x512x512_S1x512x512_1_0_0 : ∀ a, (![1, 0, 0] : Fin 3 → Nat) a + S1x512x512.size a ≤ S8x512x512.size a
  inb_S8x512_S1x512_1_0 : ∀ a, (![1, 0] : Fin 2 → Nat) a + S1x512.size a ≤ S8x512.size a
  inb_S8x512x512_S1x512x512_2_0_0 : ∀ a, (![2, 0, 0] : Fin 3 → Nat) a + S1x512x512.size a ≤ S8x512x512.size a
  inb_S8x512_S1x512_2_0 : ∀ a, (![2, 0] : Fin 2 → Nat) a + S1x512.size a ≤ S8x512.size a
  inb_S8x512x512_S1x512x512_3_0_0 : ∀ a, (![3, 0, 0] : Fin 3 → Nat) a + S1x512x512.size a ≤ S8x512x512.size a
  inb_S8x512_S1x512_3_0 : ∀ a, (![3, 0] : Fin 2 → Nat) a + S1x512.size a ≤ S8x512.size a
  inb_S8x512x512_S1x512x512_4_0_0 : ∀ a, (![4, 0, 0] : Fin 3 → Nat) a + S1x512x512.size a ≤ S8x512x512.size a
  inb_S8x512_S1x512_4_0 : ∀ a, (![4, 0] : Fin 2 → Nat) a + S1x512.size a ≤ S8x512.size a
  inb_S8x512x512_S1x512x512_5_0_0 : ∀ a, (![5, 0, 0] : Fin 3 → Nat) a + S1x512x512.size a ≤ S8x512x512.size a
  inb_S8x512_S1x512_5_0 : ∀ a, (![5, 0] : Fin 2 → Nat) a + S1x512.size a ≤ S8x512.size a
  inb_S8x512x512_S1x512x512_6_0_0 : ∀ a, (![6, 0, 0] : Fin 3 → Nat) a + S1x512x512.size a ≤ S8x512x512.size a
  inb_S8x512_S1x512_6_0 : ∀ a, (![6, 0] : Fin 2 → Nat) a + S1x512.size a ≤ S8x512.size a
  inb_S8x512x512_S1x512x512_7_0_0 : ∀ a, (![7, 0, 0] : Fin 3 → Nat) a + S1x512x512.size a ≤ S8x512x512.size a
  inb_S8x512_S1x512_7_0 : ∀ a, (![7, 0] : Fin 2 → Nat) a + S1x512.size a ≤ S8x512.size a
  slices_S104x4096_S100x4096_0_0 : S104x4096.Slices ![0, 0] S100x4096
  transposes_S100x4096_S4096x100_1_0 : S100x4096.Transposes [1, 0] S4096x100
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S104x512x512.size a
  hwx0_1 : ∀ i : grid0.Coords, EltTy.bits .f32 = 32 ∨ (Rect.block (s := S104x512x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S104x512.size a
  hwx0_2 : ∀ i : grid0.Coords, EltTy.bits .f32 = 32 ∨ (Rect.block (s := S104x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S104x4096.size a
  hwx0_3 : ∀ i : grid0.Coords, EltTy.bits .f32 = 32 ∨ (Rect.block (s := S104x4096) S8x512.size (cc0_transform_3 i) (hinb0_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S100x512x512 : Shape := ⟨3, ![100, 512, 512]⟩
abbrev S100x512 : Shape := ⟨2, ![100, 512]⟩
abbrev S4096x100x512 : Shape := ⟨3, ![4096, 100, 512]⟩
abbrev S1x100x512 : Shape := ⟨3, ![1, 100, 512]⟩
abbrev S_ : Shape := ⟨0, ![]⟩
abbrev S4096x100 : Shape := ⟨2, ![4096, 100]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S100x512x512, .f32⟩
  | .hbm, ⟨2, _⟩ => ⟨S100x512, .f32⟩
  | .hbm, ⟨3, _⟩ => ⟨S4096x100x512, .f32⟩
  | .hbm, ⟨4, _⟩ => ⟨S1x100x512, .f32⟩
  | .hbm, ⟨5, _⟩ => ⟨S4096x100x512, .f32⟩
  | .hbm, ⟨6, _⟩ => ⟨S4096x100x512, .f32⟩
  | .hbm, ⟨7, _⟩ => ⟨S4096x100x512, .f32⟩
  | .hbm, ⟨8, _⟩ => ⟨S_, .f32⟩
  | .hbm, ⟨9, _⟩ => ⟨S4096x100, .f32⟩
  | .hbm, ⟨10, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S100x512_S1x100x512_1_2 : S100x512.BroadcastsInDim S1x100x512 (![1, 2] : Fin 2 → Fin S1x100x512.rank)
  bcast_S1x100x512_S4096x100x512_0_1_2 : S1x100x512.BroadcastsInDim S4096x100x512 (![0, 1, 2] : Fin 3 → Fin S4096x100x512.rank)
  reducesTo_S4096x100x512_S4096x100_d2 : S4096x100x512.ReducesTo [2] S4096x100
  h_S_ : 0 < S_.numel
  dot_S4096x512_S100x512x512_S4096x100x512_1_2_0_01_n_n_wf : DotDims.WF S4096x512 S100x512x512 S4096x100x512 [1] [2] [0] [0, 1] [] []

variable [Facts₀]

def dot_S4096x512_S100x512x512_S4096x100x512_1_2_0_01_n_n : DotDims S4096x512 S100x512x512 S4096x100x512 where
  lhsContracting := [1]
  rhsContracting := [2]
  lhsNonContracting := [0]
  rhsNonContracting := [0, 1]
  lhsBatch := []
  rhsBatch := []
  wf := dot_S4096x512_S100x512x512_S4096x100x512_1_2_0_01_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«129362_j6150393168265_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«129362_j6150393168265_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.AffineDistance.lean ====
/-
  The distance from the origin of a point after an affine map, for a batch of points and a stack of maps.

  For points `x : [B, D]`, a stack of matrices `A : [K, E, D]` and of offsets `bias : [K, E]`, point `r` is
  carried by map `k` to the vector `A_k x_r + bias_k`, whose entry `e` is `∑_d x (r, d) · A (k, e, d) + bias (k, e)`:
  the product of `x` with the ROWS of `A_k`. Its squared length is the sum over `e` of the squares of those
  entries (`sqLen`), and its length the square root of that on the extended reals (`dist`).

  An entry depends on `x` only through row `r`, and on `A` and `bias` only through member `k` (`sqLen_congr`,
  `dist_congr`): so a block of rows of `x`, a block of members of the stack, and a stack with further members
  appended give the same distances where they hold the same entries. The distances are laid out as an array
  either points-first `[B, K]` (`distArr`) or maps-first `[K, B]` (`distArrT`).
-/
import Idealize.ShloMosaic.Lib.ValueIdx
import Idealize.ShloMosaic.PureOps.Ideal.Laws
import proofs.«129362_j6150393168265_1_alg».proof.Proof.LibRowsDot

noncomputable section

namespace Cert.AffineDistance

open Idealize.ShloMosaic Idealize.ShloMosaic.ValueIdx
open Cert.DenseLayer (Mat)
open Cert.DenseRows (prodRowT prodRowT_congr)

/-- A stack of `K` matrices of `E` rows and `D` columns. -/
abbrev Stack (K E D : ℕ) : Type := (⟨3, ![K, E, D]⟩ : Shape).Idx → EReal

variable {B K E D : ℕ}

/-- Matrix `k` of the stack. -/
def member (A : Stack K E D) (k : Fin K) : Mat E D := fun i => A (ix3 k (i 0) (i 1))

/-- The squared length of `A_k x_r + bias_k`: the sum over its `E` entries of their squares. -/
def sqLen (x : Mat B D) (A : Stack K E D) (bias : Mat K E) (r : Fin B) (k : Fin K) : EReal :=
  ∑ e : Fin E, (prodRowT x (member A k) r e + bias (ix2 k e)) * (prodRowT x (member A k) r e + bias (ix2 k e))

/-- The length of `A_k x_r + bias_k`. -/
def dist (x : Mat B D) (A : Stack K E D) (bias : Mat K E) (r : Fin B) (k : Fin K) : EReal :=
  Ideal.sqrt (sqLen x A bias r k)

/-- The squared length reads `x` along row `r` only, and `A` and `bias` at member `k` only. -/
theorem sqLen_congr {B' K' : ℕ} (x : Mat B D) (x' : Mat B' D) (A : Stack K E D) (A' : Stack K' E D)
    (bias : Mat K E) (bias' : Mat K' E) (r : Fin B) (r' : Fin B') (k : Fin K) (k' : Fin K')
    (hx : ∀ d, x (ix2 r d) = x' (ix2 r' d)) (hA : ∀ e d, A (ix3 k e d) = A' (ix3 k' e d))
    (hb : ∀ e, bias (ix2 k e) = bias' (ix2 k' e)) :
    sqLen x A bias r k = sqLen x' A' bias' r' k' := by
  unfold sqLen
  refine Finset.sum_congr rfl fun e _ => ?_
  rw [prodRowT_congr x x' (member A k) (member A' k') r r' e e hx (fun d => hA e d), hb e]

/-- So does the length. -/
theorem dist_congr {B' K' : ℕ} (x : Mat B D) (x' : Mat B' D) (A : Stack K E D) (A' : Stack K' E D)
    (bias : Mat K E) (bias' : Mat K' E) (r : Fin B) (r' : Fin B') (k : Fin K) (k' : Fin K')
    (hx : ∀ d, x (ix2 r d) = x' (ix2 r' d)) (hA : ∀ e d, A (ix3 k e d) = A' (ix3 k' e d))
    (hb : ∀ e, bias (ix2 k e) = bias' (ix2 k' e)) :
    dist x A bias r k = dist x' A' bias' r' k' :=
  congrArg Ideal.sqrt (sqLen_congr x x' A A' bias bias' r r' k k' hx hA hb)

/-- The distances, points first: entry `(r, k)` is the length of `A_k x_r + bias_k`. -/
def distArr (x : Mat B D) (A : Stack K E D) (bias : Mat K E) : Mat B K := fun i => dist x A bias (i 0) (i 1)

/-- The distances, maps first: entry `(k, r)` is the length of `A_k x_r + bias_k`. -/
def distArrT (x : Mat B D) (A : Stack K E D) (bias : Mat K E) : Mat K B := fun i => dist x A bias (i 1) (i 0)

theorem distArr_apply (x : Mat B D) (A : Stack K E D) (bias : Mat K E) (r : Fin B) (k : Fin K) :
    distArr x A bias (ix2 r k) = dist x A bias r k := rfl

theorem distArrT_apply (x : Mat B D) (A : Stack K E D) (bias : Mat K E) (k : Fin K) (r : Fin B) :
    distArrT x A bias (ix2 k r) = dist x A bias r k := rfl

end Cert.AffineDistance

end
-- ==== Proof.ReferenceDistance.lean ====
/-
  The reference computes the distances, points first.

  Its contraction sums `features (r, d) · A (k, e, d)` over `d` into a `[4096, 100, 512]` array, the offsets are
  broadcast over the points and added, the squares are summed over `e` from zero, and the square root is taken:
  entry `(r, k)` of the result is the length of `A_k x_r + bias_k`, term by term the function `dist`.
-/
import proofs.«129362_j6150393168265_1_alg».proof.Proof.Gen.ReferenceIdeal.Read
import proofs.«129362_j6150393168265_1_alg».proof.Proof.AffineDistance

noncomputable section

namespace Cert.ReferenceIdeal.RefValue

open Cert.ReferenceIdeal Cert.ReferenceIdeal.Gen Cert.ReferenceIdeal.Read
open Idealize.ShloMosaic Idealize.ShloMosaic.ValueIdx
open Cert.AffineDistance

/-- The reference's last stage, at the ideal values, is `distArr` of its three arguments. -/
theorem result_eq (x0 : FVec Ideal S4096x512 .f32) (x1 : FVec Ideal S100x512x512 .f32) (x2 : FVec Ideal S100x512 .f32) :
    val_main_v6 (F := Ideal) x0 x1 x2 = distArr x0 x1 x2 := by
  funext i
  obtain ⟨r, k, rfl⟩ : ∃ (r : Fin 4096) (k : Fin 100), i = ix2 r k := ⟨i 0, i 1, eq_ix2 i⟩
  have hl : ∀ (e : Fin 512) (d : Fin 512), lidx_main_v0 (idx_main_v5 (ix2 r k) e) d = ix2 r d := fun e d =>
    funext fun a => by match a with | ⟨0, _⟩ => rfl | ⟨1, _⟩ => rfl
  have hr : ∀ (e : Fin 512) (d : Fin 512), ridx_main_v0 (idx_main_v5 (ix2 r k) e) d = ix3 k e d := fun e d =>
    funext fun a => by match a with | ⟨0, _⟩ => rfl | ⟨1, _⟩ => rfl | ⟨2, _⟩ => rfl
  have hb : ∀ e : Fin 512, idx_main_v1 (idx_main_v2 (idx_main_v5 (ix2 r k) e)) = ix2 k e := fun e =>
    funext fun a => by match a with | ⟨0, _⟩ => rfl | ⟨1, _⟩ => rfl
  rw [val_main_v6_apply, val_main_v5_apply]
  simp only [val_main_v4_apply, val_main_v3_apply, val_main_v2_apply, val_main_v1_apply, val_main_v0_apply,
    val_main_cst_apply, Ideal.hostUnary_sqrt_def, Ideal.addf_def, Ideal.mulf_def, Ideal.ofBits_def,
    Ideal.ofBits_zero_f32, zero_add, hl, hr, hb]
  rfl

end Cert.ReferenceIdeal.RefValue

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«129362_j6150393168265_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«129362_j6150393168265_1_alg».proof.Proof.LibRowsDot
import proofs.«129362_j6150393168265_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.RowDistance.lean ====
/-
  One row of the kernel's output block: the distances of the block's 512 points under ONE map.

  For each of the eight maps of a block the kernel takes the map's matrix `a : [1, 512, 512]` and offsets
  `bv : [1, 512]` out of the staged blocks, multiplies the points `v : [512, 512]` with the rows of the matrix into a
  zero accumulator, adds the offsets along every row, squares, sums each row, and takes the square root: the row
  `[1, 512]` it stores holds at `(0, p)` the length of `a x_p + bv`, that is `dist v a bv p 0` with the one-member
  stacks `a` and `bv`. The changes of float format are the identity at the ideal values.

  The eight stores' payloads are this one function of the point block and of the map's two slices (`row0` … `row7`).
-/
import proofs.«129362_j6150393168265_1_alg».proof.Proof.Gen.KernelIdeal.Skeleton
import Idealize.ShloMosaic.Lib.ValueLayout
import proofs.«129362_j6150393168265_1_alg».proof.Proof.LibRowsDims
import proofs.«129362_j6150393168265_1_alg».proof.Proof.AffineDistance

noncomputable section

namespace Cert.KernelIdeal.RowValue

open Cert.KernelIdeal Cert.KernelIdeal.Gen
open Idealize.ShloMosaic Idealize.ShloMosaic.ValueIdx
open Cert.AffineDistance
open Cert.DenseRows (prodRowT RowsDot rowsDot_of_axes matmul_zero_rows_apply)

/-- The kernel's product sums the second axis of both operands: points times the ROWS of the map's matrix. -/
theorem rowsDot : RowsDot dot_S512x512_S512x512_S512x512_1_1_0_0_n_n :=
  rowsDot_of_axes _ rfl rfl rfl rfl rfl rfl

/-- The entry `(p, e)` of the product plus the offsets: entry `e` of `a x_p + bv`. -/
theorem affine_apply (v : FVec Ideal S512x512 .bf16) (a : Vec Ideal S1x512x512 .f32) (bv : Vec Ideal S1x512 .f32)
    (p e : Fin 512) :
    addf (matmul dot_S512x512_S512x512_S512x512_1_1_0_0_n_n none v
        (truncf .bf16 (shapeCast S512x512 a Facts₀.shapeCasts_S1x512x512_S512x512) Facts₀.bitsLt_bf16_f32)
        (constant S512x512 .f32 0x00000000#32))
      (broadcastTo S512x512 (shapeCast S1x512 (shapeCast S512 bv Facts₀.shapeCasts_S1x512_S512) Facts₀.shapeCasts_S512_S1x512)
        Facts₀.broadcasts_S1x512_S512x512) (ix2 p e)
      = prodRowT v (member a (0 : Fin 1)) p e + bv (ix2 (0 : Fin 1) e) := by
  rw [addf_apply]
  refine congrArg₂ (· + ·) ?_ ?_
  · refine (matmul_zero_rows_apply rowsDot none v _ (ix2 p e)).trans ?_
    refine Finset.sum_congr rfl fun d _ => ?_
    refine congrArg (v (ix2 p d) * ·) ?_
    exact shapeCast_1ab_ab_apply a Facts₀.shapeCasts_S1x512x512_S512x512 e d
  · refine (broadcastTo_1b_ab_apply _ Facts₀.broadcasts_S1x512_S512x512 p e).trans ?_
    refine (shapeCast_a_1a_apply _ Facts₀.shapeCasts_S512_S1x512 (0 : Fin 1) e).trans ?_
    exact shapeCast_1a_a_apply bv Facts₀.shapeCasts_S1x512_S512 e

/-- The row the kernel stores for one map holds, at `(0, p)`, the length of `a x_p + bv`. -/
theorem row_apply (v : FVec Ideal S512x512 .bf16) (a : Vec Ideal S1x512x512 .f32) (bv : Vec Ideal S1x512 .f32)
    (u : Fin 1) (p : Fin 512) :
    k0_pay5 (F := Ideal) v a bv (ix2 u p) = dist v a bv p (0 : Fin 1) := by
  unfold k0_pay5
  refine (shapeCast_a_1a_apply _ Facts₀.shapeCasts_S512_S1x512 u p).trans ?_
  show Ideal.sqrt (multiReduction (F := Ideal) .add [1] S512 _ 0x00000000#32 Facts₀.reduces_S512x512_S512 (.inl rfl) rfl (ix1 p)) = _
  refine congrArg Ideal.sqrt ?_
  refine (Cert.ColumnLayout.multiReduction_add_rows_apply _ _ Facts₀.reduces_S512x512_S512 (.inl rfl) rfl p).trans ?_
  unfold sqLen
  refine Finset.sum_congr rfl fun e _ => ?_
  rw [mulf_apply]
  exact congrArg₂ (· * ·) (affine_apply v a bv p e) (affine_apply v a bv p e)

/-! ## The eight stores' payloads are that row -/

variable (x0 : Vec Ideal S512x512 .f32) (a : Vec Ideal S1x512x512 .f32) (bv : Vec Ideal S1x512 .f32)

theorem row0 : k0_pay3 (F := Ideal) x0 a bv = k0_pay5 (k0_pay2 x0) a bv := rfl
theorem row1 : k0_pay4 (F := Ideal) x0 a bv = k0_pay5 (k0_pay2 x0) a bv := rfl
theorem row3 : k0_pay6 (F := Ideal) (k0_pay2 x0) a bv = k0_pay5 (k0_pay2 x0) a bv := rfl
theorem row4 : k0_pay9 (F := Ideal) (k0_pay7 (k0_pay2 x0) a) (k0_pay8 bv) = k0_pay5 (k0_pay2 x0) a bv := rfl
theorem row5 : k0_pay10 (F := Ideal) (k0_pay2 x0) a bv = k0_pay5 (k0_pay2 x0) a bv := rfl
theorem row6 : k0_pay11 (F := Ideal) (k0_pay2 x0) a bv = k0_pay5 (k0_pay2 x0) a bv := rfl
theorem row7 : k0_pay1 (F := Ideal) (k0_pay2 x0) a bv = k0_pay5 (k0_pay2 x0) a bv := rfl

/-- The points enter the product through a change of float format, the identity at the ideal values. -/
theorem points_eq : (k0_pay2 (F := Ideal) x0 : S512x512.Idx → EReal) = x0 := rfl

end Cert.KernelIdeal.RowValue

end
-- ==== Proof.BlockDistance.lean ====
/-
  What the kernel body leaves in its output block: the distances, maps first, of the staged blocks.

  At a grid point the body holds a block of 512 points `x0 : [512, 512]`, a block of eight maps' matrices
  `x1 : [8, 512, 512]` and offsets `x2 : [8, 512]`, and writes the output block `[8, 512]` one row at a time: row `i`
  from member `i` of `x1` and of `x2`, read through the slices that start at `(i, 0, 0)` and `(i, 0)`. By the row's value
  (`row_apply`), and since a distance reads the stacks at its own member only (`dist_congr`), row `i` at `(0, p)` is
  the length of `A_i x_p + bias_i` over the WHOLE blocks: entry `(i, p)` of `distArrT x0 x1 x2`. The eight rows tile
  the block, so the block is that array.
-/
import proofs.«129362_j6150393168265_1_alg».proof.Proof.Gen.KernelIdeal.Frame
import Idealize.ShloMosaic.Lib.Pipeline.Value
import proofs.«129362_j6150393168265_1_alg».proof.Proof.RowDistance

noncomputable section

namespace Cert.KernelIdeal.BlockValue

open Cert.KernelIdeal Cert.KernelIdeal.Gen Cert.KernelIdeal.RowValue
open Idealize.ShloMosaic Idealize.ShloMosaic.ValueIdx
open Cert.AffineDistance

variable (x0 : Vec Ideal S512x512 .f32) (x1 : Vec Ideal S8x512x512 .f32) (x2 : Vec Ideal S8x512 .f32)

/-- The points are loaded through the rectangle that is the whole block. -/
theorem points_ld : View.ld x0 r0_0 = x0 :=
  View.ld_unit_zero (S := S512x512) (funext fun a => by match a with | ⟨0, _⟩ => rfl | ⟨1, _⟩ => rfl) _ x0

/-- Row `i` of the output block: the row's payload over the slices of the two stacks at member `i`, at a local
    index, is the maps-first distance array of the whole blocks at the index's place in the block. -/
theorem row_of_block (i : ℕ) (hi : i < 8)
    (inbA : ∀ a, (![i, 0, 0] : Fin 3 → ℕ) a + S1x512x512.size a ≤ S8x512x512.size a)
    (inbB : ∀ a, (![i, 0] : Fin 2 → ℕ) a + S1x512.size a ≤ S8x512.size a)
    (x : (Rect.unit (s := S8x512) ![i, 0] S1x512.size inbB).shape.Idx) :
    k0_pay5 (F := Ideal) (k0_pay2 (View.ld x0 r0_0))
        (View.ld x1 (Rect.unit (s := S8x512x512) ![i, 0, 0] S1x512x512.size inbA))
        (View.ld x2 (Rect.unit (s := S8x512) ![i, 0] S1x512.size inbB)) x
      = distArrT x0 x1 x2 ((Rect.unit (s := S8x512) ![i, 0] S1x512.size inbB).emb x) := by
  obtain ⟨u, p, rfl⟩ : ∃ (u : Fin 1) (p : Fin 512), x = ix2 u p := ⟨x 0, x 1, eq_ix2 x⟩
  have hu : u = 0 := Subsingleton.elim _ _
  subst hu
  have hemb : (Rect.unit (s := S8x512) ![i, 0] S1x512.size inbB).emb (ix2 (0 : Fin 1) p) = ix2 (⟨i, hi⟩ : Fin 8) p :=
    funext fun a => Fin.ext (by
      match a with
      | ⟨0, _⟩ => show i + 1 * 0 = i; omega
      | ⟨1, _⟩ => show 0 + 1 * p.val = p.val; omega)
  rw [hemb, distArrT_apply]
  refine (row_apply _ _ _ (0 : Fin 1) p).trans ?_
  refine dist_congr _ x0 _ x1 _ x2 p p (0 : Fin 1) (⟨i, hi⟩ : Fin 8) (fun d => ?_) (fun e d => ?_) (fun e => ?_)
  · show View.ld x0 r0_0 (ix2 p d) = x0 (ix2 p d)
    rw [points_ld]
  · exact congrArg x1 (funext fun a => Fin.ext (by
      match a with
      | ⟨0, _⟩ => show i + 1 * 0 = i; omega
      | ⟨1, _⟩ => show 0 + 1 * e.val = e.val; omega
      | ⟨2, _⟩ => show 0 + 1 * d.val = d.val; omega))
  · exact congrArg x2 (funext fun a => Fin.ext (by
      match a with
      | ⟨0, _⟩ => show i + 1 * 0 = i; omega
      | ⟨1, _⟩ => show 0 + 1 * e.val = e.val; omega))

/-- The body leaves the maps-first distances of its three blocks in the output block. -/
theorem out_block : out0_3 (F := Ideal) x0 x1 x2 = distArrT x0 x1 x2 := by
  funext y
  unfold out0_3
  refine View.canon_apply_of_pieces (Val := Elt Ideal) (S := S8x512) (e := .f32)
    (show S8x512.Idx → Elt Ideal .f32 from distArrT x0 x1 x2) _ (fun q hq x => ?_) y (cover0_3 _ _ _ _ _ _ _ _ y)
  simp only [List.mem_cons, List.not_mem_nil, or_false] at hq
  rcases hq with rfl | rfl | rfl | rfl | rfl | rfl | rfl | rfl
  · exact (congrFun (row7 _ _ _) x).trans (row_of_block x0 x1 x2 7 (by decide) _ _ x)
  · exact (congrFun (row6 _ _ _) x).trans (row_of_block x0 x1 x2 6 (by decide) _ _ x)
  · exact (congrFun (row5 _ _ _) x).trans (row_of_block x0 x1 x2 5 (by decide) _ _ x)
  · exact (congrFun (row4 _ _ _) x).trans (row_of_block x0 x1 x2 4 (by decide) _ _ x)
  · exact (congrFun (row3 _ _ _) x).trans (row_of_block x0 x1 x2 3 (by decide) _ _ x)
  · exact row_of_block x0 x1 x2 2 (by decide) _ _ x
  · exact (congrFun (row1 _ _ _) x).trans (row_of_block x0 x1 x2 1 (by decide) _ _ x)
  · exact (congrFun (row0 _ _ _) x).trans (row_of_block x0 x1 x2 0 (by decide) _ _ x)

end Cert.KernelIdeal.BlockValue

end
-- ==== Proof.ArrayDistance.lean ====
/-
  The kernel program's result: the distances, points first, of its three arguments.

  The program pads the stack of matrices and of offsets from 100 to 104 members, runs the body on a grid of
  13 × 8 points — point `(ki, bi)` takes members `8 ki … 8 ki + 7` of the padded stacks and points
  `512 bi … 512 bi + 511`, and writes block `(ki, bi)` of a `[104, 4096]` array —, then keeps the first 100 rows of
  that array and transposes them.

  * Block `(ki, bi)` written back is that block of ONE array: the maps-first distances of all the points under the
    padded stacks (`flushed_eq`: the body leaves the maps-first distances of its blocks, and a distance reads a
    stack at its own member and the points at its own row only).
  * The blocks tile the `[104, 4096]` array (`cover`), so it ends as that array (`final`).
  * A member below 100 of a padded stack is that member of the argument (`mats_apply`, `offs_apply`), so row `k < 100`
    of the array holds the distances under the argument's own map `k`; the added members only fill rows the
    program drops.
  * Row `k`, column `r` of the kept rows, transposed, is entry `(r, k)` of the result (`result_eq`).
-/
import proofs.«129362_j6150393168265_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueLayout
import proofs.«129362_j6150393168265_1_alg».proof.Proof.BlockDistance

noncomputable section

namespace Cert.KernelIdeal.ArrayValue

open Cert.KernelIdeal Cert.KernelIdeal.Gen Cert.KernelIdeal.BlockValue
open Idealize.ShloMosaic Idealize.ShloMosaic.TcCoe Idealize.SL.Sem Idealize.ShloMosaic.StableHlo
open Idealize.ShloMosaic.ValueIdx
open Cert.AffineDistance

variable (m : (ℓ : Loc nD τ sig) → Buf (Elt Ideal) ℓ) (ρ : Dev nD → PrngReg)

/-! ## The arrays the region finds, and its blocks of them -/

/-- The points, as launched. -/
abbrev pts (c : Dev nD) : Vec Ideal S4096x512 .f32 := V m c main_arg0
/-- The stack of matrices padded to 104 members. -/
abbrev mats (c : Dev nD) : Vec Ideal S104x512x512 .f32 := V m c main_v0
/-- The stack of offsets padded to 104 members. -/
abbrev offs (c : Dev nD) : Vec Ideal S104x512 .f32 := V m c main_v1

/-- The block of points at grid point `t`. -/
abbrev xblk (c : Dev nD) (t : Fin cfg0.N) : Vec Ideal S512x512 .f32 := iblk m c 0 t
/-- The block of eight matrices at grid point `t`. -/
abbrev ablk (c : Dev nD) (t : Fin cfg0.N) : Vec Ideal S8x512x512 .f32 := iblk m c 1 t
/-- The block of eight offset rows at grid point `t`. -/
abbrev bblk (c : Dev nD) (t : Fin cfg0.N) : Vec Ideal S8x512 .f32 := iblk m c 2 t

/-- The index maps over the grid: the points' block moves with the output's column block, the stacks' blocks with its
    row block, and the output's block indices stay in their ranges. -/
theorem idx_facts : ∀ t : Fin cfg0.N, win0_0.index t (0 : Fin 2) = win0_3.index t (1 : Fin 2)
    ∧ win0_0.index t (1 : Fin 2) = 0
    ∧ win0_1.index t (0 : Fin 3) = win0_3.index t (0 : Fin 2)
    ∧ win0_1.index t (1 : Fin 3) = 0
    ∧ win0_1.index t (2 : Fin 3) = 0
    ∧ win0_2.index t (0 : Fin 2) = win0_3.index t (0 : Fin 2)
    ∧ win0_2.index t (1 : Fin 2) = 0
    ∧ win0_3.index t (0 : Fin 2) ≤ 12
    ∧ win0_3.index t (1 : Fin 2) ≤ 7 :=
  (by decide +kernel : ∀ t : Fin grid0.N, _)

/-- Every block of the output array is some point's. -/
theorem idx_onto : ∀ (q0 : Fin 13) (q1 : Fin 8), ∃ t : Fin cfg0.N, win0_3.index t = ![q0.val, q1.val] :=
  (by decide +kernel : ∀ (q0 : Fin 13) (q1 : Fin 8), ∃ t : Fin grid0.N, win0_3.index t = ![q0.val, q1.val])

/-! ## What a point writes back -/

/-- Point `t` writes back its block of the maps-first distances of all points under the padded stacks. -/
theorem flushed_eq (c : Dev nD) (t : Fin cfg0.N) :
    (dats m 0 c).flushed 3 t
      = ((cfg0.win 3).blk t).view.read (Elt Ideal) (distArrT (pts m c) (mats m c) (offs m c)) := by
  show (cfg0.win 3).cut (grid0.coords t) ((dats m 0 c).after 3 t) = _
  rw [after0_3]
  obtain ⟨e0, e1, e2, e3, e4, e5, e6, e7, e8⟩ := idx_facts t
  funext j
  show out0_3 (xblk m c t) (ablk m c t) (bblk m c t) j
    = distArrT (pts m c) (mats m c) (offs m c) (((cfg0.win 3).blk t).view.emb j)
  refine (congrFun (out_block (xblk m c t) (ablk m c t) (bblk m c t)) j).trans ?_
  have hj0 : (j 0).val < 8 := (j 0).isLt
  have hj1 : (j 1).val < 512 := (j 1).isLt
  refine dist_congr (xblk m c t) (pts m c) (ablk m c t) (mats m c) (bblk m c t) (offs m c) (j 1) _ (j 0) _
    (fun d => ?_) (fun e d => ?_) (fun e => ?_)
  · show V m c main_arg0 (((cfg0.win 0).blk t).view.emb (ix2 (j 1) d)) = V m c main_arg0 _
    refine congrArg (V m c main_arg0) (funext fun a => Fin.ext ?_)
    match a with
    | ⟨0, _⟩ => show win0_0.index t (0 : Fin 2) * 512 + 1 * (j 1).val = win0_3.index t (1 : Fin 2) * 512 + 1 * (j 1).val; omega
    | ⟨1, _⟩ => show win0_0.index t (1 : Fin 2) * 512 + 1 * d.val = d.val; omega
  · show V m c main_v0 (((cfg0.win 1).blk t).view.emb (ix3 (j 0) e d)) = V m c main_v0 _
    refine congrArg (V m c main_v0) (funext fun a => Fin.ext ?_)
    match a with
    | ⟨0, _⟩ => show win0_1.index t (0 : Fin 3) * 8 + 1 * (j 0).val = win0_3.index t (0 : Fin 2) * 8 + 1 * (j 0).val; omega
    | ⟨1, _⟩ => show win0_1.index t (1 : Fin 3) * 512 + 1 * e.val = e.val; omega
    | ⟨2, _⟩ => show win0_1.index t (2 : Fin 3) * 512 + 1 * d.val = d.val; omega
  · show V m c main_v1 (((cfg0.win 2).blk t).view.emb (ix2 (j 0) e)) = V m c main_v1 _
    refine congrArg (V m c main_v1) (funext fun a => Fin.ext ?_)
    match a with
    | ⟨0, _⟩ => show win0_2.index t (0 : Fin 2) * 8 + 1 * (j 0).val = win0_3.index t (0 : Fin 2) * 8 + 1 * (j 0).val; omega
    | ⟨1, _⟩ => show win0_2.index t (1 : Fin 2) * 512 + 1 * e.val = e.val; omega

/-! ## The blocks tile the output array -/

/-- An index of the output array is in point `t`'s block iff each coordinate is in the block's range on its axis. -/
theorem mem_blk (t : Fin cfg0.N) (i : S104x4096.Idx) :
    i ∈ ((cfg0.win 3).blk t).view.set
      ↔ ∀ a : Fin 2, win0_3.index t a * S8x512.size a ≤ (i a).val
          ∧ (i a).val < win0_3.index t a * S8x512.size a + S8x512.size a := by
  show i ∈ ((View.whole main_v2).slice (win0_3.rect t)).set ↔ _
  rw [View.set_slice_whole, Rect.mem_set_unit]
  exact Iff.rfl

/-- Row `k`, column `r` lies in the block of the point with row block `k / 8` and column block `r / 512`. -/
theorem cover (i : S104x4096.Idx) :
    ∃ t : Fin cfg0.N, (cfg0.win 3).flush t = true ∧ i ∈ ((cfg0.win 3).blk t).view.set := by
  have hi0 : (i 0).val < 104 := (i 0).isLt
  have hi1 : (i 1).val < 4096 := (i 1).isLt
  obtain ⟨t, ht⟩ := idx_onto ⟨(i 0).val / 8, by omega⟩ ⟨(i 1).val / 512, by omega⟩
  have q0 : win0_3.index t (0 : Fin 2) = (i 0).val / 8 := congrFun ht 0
  have q1 : win0_3.index t (1 : Fin 2) = (i 1).val / 512 := congrFun ht 1
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 512 ≤ (i 1).val ∧ (i 1).val < win0_3.index t (1 : Fin 2) * 512 + 512
    omega

/-- The output array after the run: the maps-first distances of all points under the padded stacks. -/
theorem final (c : Dev nD) : (dats m 0 c).arrAt 3 cfg0.N = distArrT (pts m c) (mats m c) (offs m c) :=
  (dats m 0 c).arrAt_eq_of_cover 3 _ (fun t _ => flushed_eq m c t) cover

/-! ## The padded stacks -/

/-- The padded stack of matrices is the host's `pad` of the argument. -/
theorem mats_eq (c : Dev nD) :
    mats m c = pad S104x512x512 ![0, 0, 0] ![4, 0, 0] ![0, 0, 0] (m ((c : Thread nD τ).loc main_arg1))
      (sitofp (F := Ideal) .f32 (constantI S_ 32 0#32)) Facts₀.pads_S100x512x512_S104x512x512_040_000_000 Facts₀.h_S_ := by
  show V m c main_v0 = _
  dsimp only [V, V0]
  simp only [hostOps0, hostOps0_1, hostOps0_2, hostOps0_3, List.flatten_cons, List.flatten_nil, List.append_nil,
    List.cons_append, List.nil_append]
  after_results
  rfl

/-- The padded stack of offsets is the host's `pad` of the argument. -/
theorem offs_eq (c : Dev nD) :
    offs m c = pad S104x512 ![0, 0] ![4, 0] ![0, 0] (m ((c : Thread nD τ).loc main_arg2))
      (sitofp (F := Ideal) .f32 (constantI S_ 32 0#32)) Facts₀.pads_S100x512_S104x512_040_000 Facts₀.h_S_ := by
  show V m c main_v1 = _
  dsimp only [V, V0]
  simp only [hostOps0, hostOps0_1, hostOps0_2, hostOps0_3, List.flatten_cons, List.flatten_nil, List.append_nil,
    List.cons_append, List.nil_append]
  after_results
  rfl

/-- Member `k < 100` of the padded stack of matrices is member `k` of the argument. -/
theorem mats_apply (c : Dev nD) (k : Fin 100) (e d : Fin 512) :
    mats m c (ix3 (⟨k.val, by omega⟩ : Fin 104) e d) = m ((c : Thread nD τ).loc main_arg1) (ix3 k e d) := by
  rw [mats_eq]
  refine pad_apply_of_inside _ _ _ _ _ _ _ _ (ix3 k e d) fun a => ?_
  match a with
  | ⟨0, _⟩ => show k.val = 0 + k.val * (0 + 1); omega
  | ⟨1, _⟩ => show e.val = 0 + e.val * (0 + 1); omega
  | ⟨2, _⟩ => show d.val = 0 + d.val * (0 + 1); omega

/-- Member `k < 100` of the padded stack of offsets is member `k` of the argument. -/
theorem offs_apply (c : Dev nD) (k : Fin 100) (e : Fin 512) :
    offs m c (ix2 (⟨k.val, by omega⟩ : Fin 104) e) = m ((c : Thread nD τ).loc main_arg2) (ix2 k e) := by
  rw [offs_eq]
  refine pad_apply_of_inside _ _ _ _ _ _ _ _ (ix2 k e) fun a => ?_
  match a with
  | ⟨0, _⟩ => show k.val = 0 + k.val * (0 + 1); omega
  | ⟨1, _⟩ => show e.val = 0 + e.val * (0 + 1); omega

/-! ## The rows kept, transposed -/

/-- The program's result: the first 100 rows of the output array, transposed, are the points-first distances of the
    three arguments. -/
theorem result_eq (c : Dev nD) :
    Pipeline.afterTail₀ cfgs (dats m) 0 (V0 m) [hostOps1] c main_v4
      = distArr (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [(Pipeline.withArrays_arr spec0 launch0.win.arr_inj c _ _ 3).trans (final m c)]
  funext i
  obtain ⟨r, k, rfl⟩ : ∃ (r : Fin 4096) (k : Fin 100), i = ix2 r k := ⟨i 0, i 1, eq_ix2 i⟩
  refine (transpose_ix2_apply _ Facts₀.transposes_S100x4096_S4096x100_1_0 r k).trans ?_
  refine (slice2_axis0_apply 0 _ Facts₀.slices_S104x4096_S100x4096_0_0 k r (⟨k.val, by omega⟩ : Fin 104) (by simp)).trans ?_
  rw [distArrT_apply, distArr_apply]
  refine dist_congr _ _ _ _ _ _ r r _ k (fun d => ?_) (fun e d => mats_apply m c k e d) (fun e => offs_apply m c k e)
  exact congrFun (V_main_arg0 m c) (ix2 r d)

end Cert.KernelIdeal.ArrayValue

end
-- ==== Proof.KernelRun.lean ====
/-
  The kernel program's run at the ideal values, with its result named.

  Every weakly fair execution terminates; the result array holds the points-first distances of the three arguments
  (the output array after the region, its first 100 rows kept and transposed: `result_eq`), and the arguments end as
  launched: the points are an input the region only reads, and the stacks are touched by no operation at all (the
  region reads their padded copies).
-/
import proofs.«129362_j6150393168265_1_alg».proof.Proof.ArrayDistance

noncomputable section

namespace Cert.KernelIdeal.ArrayValue

open Cert.KernelIdeal Cert.KernelIdeal.Gen
open Idealize.ShloMosaic Idealize.ShloMosaic.TcCoe Idealize.SL.Sem
open Cert.AffineDistance

variable (m : (ℓ : Loc nD τ sig) → Buf (Elt Ideal) ℓ) (ρ : Dev nD → PrngReg)

/-- The run: the result at the points-first distances of the arguments, the arguments unchanged. -/
theorem run : θ_run defs (onTc (τ := τ) (main (F := Ideal))) ⟨m, fun _ => 0, ρ⟩ fun r => ∀ c : Dev nD,
      r.2.mem ((c.tc : Thread nD τ).loc main_v4)
        = distArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.lean ====
/-
  Distances to the origin after a stack of affine maps: a tiled kernel against one contraction.

  Both programs take points `x : [4096, 512]`, matrices `A : [100, 512, 512]` and offsets `b : [100, 512]` and return
  `[4096, 100]`: entry `(r, k)` is the length of `A_k x_r + b_k`, the square root of `∑_e (∑_d x (r, d) · A (k, e, d) + b (k, e))²`
  on the extended reals (Proof/AffineDistance.lean, `dist`).

  The reference forms all the products in one contraction, adds the broadcast offsets, squares, sums over `e` from zero
  and takes the root: term by term that function (Proof/ReferenceDistance.lean, over the generated reading of its
  operations).

  The kernel pads the two stacks to 104 members, and on a 13 × 8 grid computes, for eight maps and 512 points at a
  time, one row of distances per map: the points times the ROWS of the map's matrix into a zero accumulator, plus
  the offsets, squared, summed along each row, rooted (Proof/RowDistance.lean; the changes of float format are the
  identity at the ideal values). The eight rows fill the output block (Proof/BlockDistance.lean), the blocks tile a
  `[104, 4096]` array, whose first 100 rows, transposed, are the result; a distance reads the stacks at its own member
  only, so the members the padding adds never reach a kept row (Proof/ArrayDistance.lean, Proof/KernelRun.lean).

  The two sides are the same sums of the same products, so no law of the extended reals beyond reading both texts is
  used, and the finiteness of the inputs is never opened. The kernel's two frames are the generated frame
  certificates; the reference's frame is its generated run with the result dropped; the idealization rewrote
  nothing, so `preserves` is trivial.
-/
import proofs.«129362_j6150393168265_1_alg».proof.Defs
import proofs.«129362_j6150393168265_1_alg».proof.Proof.Gen.Kernel
import proofs.«129362_j6150393168265_1_alg».proof.Proof.Gen.Kernel.Frame
import proofs.«129362_j6150393168265_1_alg».proof.Proof.Gen.KernelIdeal
import proofs.«129362_j6150393168265_1_alg».proof.Proof.Gen.KernelIdeal.Frame
import proofs.«129362_j6150393168265_1_alg».proof.Proof.Gen.ReferenceIdeal
import proofs.«129362_j6150393168265_1_alg».proof.Proof.Gen.Pre_finite_inputs
import proofs.«129362_j6150393168265_1_alg».proof.Proof.Gen.ReferenceIdeal.Run
import proofs.«129362_j6150393168265_1_alg».proof.Proof.Gen.ReferenceIdeal.Read
import proofs.«129362_j6150393168265_1_alg».proof.Proof.ReferenceDistance
import proofs.«129362_j6150393168265_1_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the points-first distances of those
    arguments in their result arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
